-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x32x32 : Shape := ⟨4, ![16, 256, 32, 32]⟩
abbrev S2000x256 : Shape := ⟨2, ![2000, 256]⟩
abbrev S_ : Shape := ⟨0, ![]⟩

class Facts : Prop where
  bcast_S_S16x256x32x32 : S_.BroadcastsInDim S16x256x32x32 (![] : Fin 0 → Fin S16x256x32x32.rank)
  reducesTo_S16x256x32x32_S_d0_1_2_3 : S16x256x32x32.ReducesTo [0, 1, 2, 3] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S16x256x32x32 .f32) (main_arg1 : FVec F S2000x256 .f32) : IVec S_ 1 :=
  let main_v0 : FVec F S16x256x32x32 .f32 := Host.absf main_arg0
  let main_cst : FVec F S_ .f32 := constant S_ .f32 0x7F800000#32
  let main_v1 : FVec F S16x256x32x32 .f32 := broadcastInDim S16x256x32x32 ![] bcast_S_S16x256x32x32 main_cst
  let main_v2 : IVec S16x256x32x32 1 := cmpf .olt main_v0 main_v1
  let main_c : IVec S_ 1 := constantI S_ 1 1#1
  let main_v3 : IVec S_ 1 := (fun x v => Host.reduce IntOp.andi x v reducesTo_S16x256x32x32_S_d0_1_2_3 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S16x256x32x32 : Shape := ⟨4, ![16, 256, 32, 32]⟩
abbrev S2000x256 : Shape := ⟨2, ![2000, 256]⟩
abbrev S16x2000x32x32 : Shape := ⟨4, ![16, 2000, 32, 32]⟩
abbrev S1x256x16x32 : Shape := ⟨4, ![1, 256, 16, 32]⟩
abbrev S1x2000x16x32 : Shape := ⟨4, ![1, 2000, 16, 32]⟩
abbrev S256x16x32 : Shape := ⟨3, ![256, 16, 32]⟩
abbrev S16x32x256 : Shape := ⟨3, ![16, 32, 256]⟩
abbrev S512x256 : Shape := ⟨2, ![512, 256]⟩
abbrev S512x2000 : Shape := ⟨2, ![512, 2000]⟩
abbrev S512 : Shape := ⟨1, ![512]⟩
abbrev S512x1 : Shape := ⟨2, ![512, 1]⟩
abbrev S16x32x2000 : Shape := ⟨3, ![16, 32, 2000]⟩
abbrev S2000x16x32 : Shape := ⟨3, ![2000, 16, 32]⟩

abbrev nBuf : Space → Nat
  | .hbm => 4
  | .vmem => 7
  | .smem => 0
  | _ => 0

abbrev bufTy : (tb : Table) → Fin (tcTables nBuf tb) → BufTy
  | .hbm, ⟨0, _⟩ => ⟨S16x256x32x32, .f32⟩
  | .hbm, ⟨1, _⟩ => ⟨S2000x256, .f32⟩
  | .hbm, ⟨2, _⟩ => ⟨S16x256x32x32, .f32⟩
  | .hbm, ⟨3, _⟩ => ⟨S16x2000x32x32, .f32⟩
  | .local _ .vmem, ⟨0, _⟩ => ⟨S1x256x16x32, .f32⟩
  | .local _ .vmem, ⟨1, _⟩ => ⟨S1x256x16x32, .f32⟩
  | .local _ .vmem, ⟨2, _⟩ => ⟨S2000x256, .f32⟩
  | .local _ .vmem, ⟨3, _⟩ => ⟨S1x256x16x32, .f32⟩
  | .local _ .vmem, ⟨4, _⟩ => ⟨S1x256x16x32, .f32⟩
  | .local _ .vmem, ⟨5, _⟩ => ⟨S1x2000x16x32, .f32⟩
  | .local _ .vmem, ⟨6, _⟩ => ⟨S1x2000x16x32, .f32⟩
  | _, _ => ⟨S16x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x16x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2000x16x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x16x32_S1x256x16x32_0_0_0_0 : ∀ a, (![0, 0, 0, 0] : Fin 4 → Nat) a + S1x256x16x32.size a ≤ S1x256x16x32.size a
  h_S1x256x16x32 : 0 < S1x256x16x32.numel
  shapeCasts_S1x256x16x32_S256x16x32 : S1x256x16x32.ShapeCasts S256x16x32
  transposes_S256x16x32_p1_2_0_S16x32x256 : S256x16x32.Transposes [1, 2, 0] S16x32x256
  shapeCasts_S16x32x256_S512x256 : S16x32x256.ShapeCasts S512x256
  inb_S2000x256_S2000x256_0_0 : ∀ a, (![0, 0] : Fin 2 → Nat) a + S2000x256.size a ≤ S2000x256.size a
  h_S2000x256 : 0 < S2000x256.numel
  reduces_S512x2000_S512 : S512x2000.Reduces [1] S512
  shapeCasts_S512_S512x1 : S512.ShapeCasts S512x1
  broadcasts_S512x1_S512x2000 : S512x1.Broadcasts S512x2000
  shapeCasts_S512x256_S16x32x256 : S512x256.ShapeCasts S16x32x256
  transposes_S16x32x256_p2_0_1_S256x16x32 : S16x32x256.Transposes [2, 0, 1] S256x16x32
  shapeCasts_S512x2000_S16x32x2000 : S512x2000.ShapeCasts S16x32x2000
  transposes_S16x32x2000_p2_0_1_S2000x16x32 : S16x32x2000.Transposes [2, 0, 1] S2000x16x32
  shapeCasts_S256x16x32_S1x256x16x32 : S256x16x32.ShapeCasts S1x256x16x32
  inb_S1x2000x16x32_S1x2000x16x32_0_0_0_0 : ∀ a, (![0, 0, 0, 0] : Fin 4 → Nat) a + S1x2000x16x32.size a ≤ S1x2000x16x32.size a
  h_S1x2000x16x32 : 0 < S1x2000x16x32.numel
  shapeCasts_S1x2000x16x32_S2000x16x32 : S1x2000x16x32.ShapeCasts S2000x16x32
  shapeCasts_S2000x16x32_S1x2000x16x32 : S2000x16x32.ShapeCasts S1x2000x16x32
  dot_S512x256_S2000x256_S512x2000_1_1_0_0_n_n_wf : DotDims.WF S512x256 S2000x256 S512x2000 [1] [1] [0] [0] [] []
  dot_S512x2000_S2000x256_S512x256_1_0_0_1_n_n_wf : DotDims.WF S512x2000 S2000x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x32.size a ≤ S16x256x32x32.size a
  hwx0_0 : ∀ i : grid0.Coords, EltTy.bits .f32 = 32 ∨ (Rect.block (s := S16x256x32x32) S1x256x16x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .f32 = 32 ∨ (Rect.block (s := S2000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x16x32.size a ≤ S16x256x32x32.size a
  hwx0_2 : ∀ i : grid0.Coords, EltTy.bits .f32 = 32 ∨ (Rect.block (s := S16x256x32x32) S1x256x16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x16x32.size a ≤ S16x2000x32x32.size a
  hwx0_3 : ∀ i : grid0.Coords, EltTy.bits .f32 = 32 ∨ (Rect.block (s := S16x2000x32x32) S1x2000x16x32.size (cc0_transform_3 i) (hinb0_3 i)).WholeWords (EltTy.packing .f32)

variable [Facts₀]

def dot_S512x256_S2000x256_S512x2000_1_1_0_0_n_n : DotDims S512x256 S2000x256 S512x2000 where
  lhsContracting := [1]
  rhsContracting := [1]
  lhsNonContracting := [0]
  rhsNonContracting := [0]
  lhsBatch := []
  rhsBatch := []
  wf := dot_S512x256_S2000x256_S512x2000_1_1_0_0_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf

abbrev win0_0 : Pipeline.Window sig grid0 :=
  Pipeline.Window.ofSpec (Memref.whole main_arg0) S1x256x16x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x16x32.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2000x16x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x32x32 : Shape := ⟨4, ![16, 256, 32, 32]⟩
abbrev S2000x256 : Shape := ⟨2, ![2000, 256]⟩
abbrev S16x32x32x256 : Shape := ⟨4, ![16, 32, 32, 256]⟩
abbrev S16384x256 : Shape := ⟨2, ![16384, 256]⟩
abbrev S256x2000 : Shape := ⟨2, ![256, 2000]⟩
abbrev S16384x2000 : Shape := ⟨2, ![16384, 2000]⟩
abbrev S_ : Shape := ⟨0, ![]⟩
abbrev S16384 : Shape := ⟨1, ![16384]⟩
abbrev S16384x1 : Shape := ⟨2, ![16384, 1]⟩
abbrev S16x32x32x2000 : Shape := ⟨4, ![16, 32, 32, 2000]⟩
abbrev S16x2000x32x32 : Shape := ⟨4, ![16, 2000, 32, 32]⟩

abbrev nBuf : Space → Nat
  | .hbm => 49
  | .vmem => 0
  | .smem => 0
  | _ => 0

abbrev bufTy : (tb : Table) → Fin (tcTables nBuf tb) → BufTy
  | .hbm, ⟨0, _⟩ => ⟨S16x256x32x32, .f32⟩
  | .hbm, ⟨1, _⟩ => ⟨S2000x256, .f32⟩
  | .hbm, ⟨2, _⟩ => ⟨S16x32x32x256, .f32⟩
  | .hbm, ⟨3, _⟩ => ⟨S16384x256, .f32⟩
  | .hbm, ⟨4, _⟩ => ⟨S256x2000, .f32⟩
  | .hbm, ⟨5, _⟩ => ⟨S16384x2000, .f32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384x1, .f32⟩
  | .hbm, ⟨12, _⟩ => ⟨S16384x2000, .f32⟩
  | .hbm, ⟨13, _⟩ => ⟨S16384x2000, .f32⟩
  | .hbm, ⟨14, _⟩ => ⟨S16384x2000, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x2000, .f32⟩
  | .hbm, ⟨19, _⟩ => ⟨S16384x2000, .f32⟩
  | .hbm, ⟨20, _⟩ => ⟨S_, .f32⟩
  | .hbm, ⟨21, _⟩ => ⟨S16384x2000, .f32⟩
  | .hbm, ⟨22, _⟩ => ⟨S16384x2000, .f32⟩
  | .hbm, ⟨23, _⟩ => ⟨S_, .f32⟩
  | .hbm, ⟨24, _⟩ => ⟨S16384x2000, .f32⟩
  | .hbm, ⟨25, _⟩ => ⟨S16384x2000, .f32⟩
  | .hbm, ⟨26, _⟩ => ⟨S16384x2000, .f32⟩
  | .hbm, ⟨27, _⟩ => ⟨S_, .f32⟩
  | .hbm, ⟨28, _⟩ => ⟨S16384x2000, .f32⟩
  | .hbm, ⟨29, _⟩ => ⟨S16384x2000, .f32⟩
  | .hbm, ⟨30, _⟩ => ⟨S16384x2000, .f32⟩
  | .hbm, ⟨31, _⟩ => ⟨S_, .f32⟩
  | .hbm, ⟨32, _⟩ => ⟨S16384x2000, .f32⟩
  | .hbm, ⟨33, _⟩ => ⟨S16384x2000, .f32⟩
  | .hbm, ⟨34, _⟩ => ⟨S16384x2000, .f32⟩
  | .hbm, ⟨35, _⟩ => ⟨S16384x2000, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x2000, .f32⟩
  | .hbm, ⟨43, _⟩ => ⟨S16384x2000, .f32⟩
  | .hbm, ⟨44, _⟩ => ⟨S16384x256, .f32⟩
  | .hbm, ⟨45, _⟩ => ⟨S16x32x32x256, .f32⟩
  | .hbm, ⟨46, _⟩ => ⟨S16x256x32x32, .f32⟩
  | .hbm, ⟨47, _⟩ => ⟨S16x32x32x2000, .f32⟩
  | .hbm, ⟨48, _⟩ => ⟨S16x2000x32x32, .f32⟩
  | _, _ => ⟨S16x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  transposes_S16x256x32x32_S16x32x32x256_0_2_3_1 : S16x256x32x32.Transposes [0, 2, 3, 1] S16x32x32x256
  shapeCasts_S16x32x32x256_S16384x256 : S16x32x32x256.ShapeCasts S16384x256
  transposes_S2000x256_S256x2000_1_0 : S2000x256.Transposes [1, 0] S256x2000
  reducesTo_S16384x2000_S16384_d1 : S16384x2000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2000_0_1 : S16384x1.BroadcastsInDim S16384x2000 (![0, 1] : Fin 2 → Fin S16384x2000.rank)
  bcast_S_S16384x2000 : S_.BroadcastsInDim S16384x2000 (![] : Fin 0 → Fin S16384x2000.rank)
  bcast_S_S16384x1 : S_.BroadcastsInDim S16384x1 (![] : Fin 0 → Fin S16384x1.rank)
  shapeCasts_S16384x256_S16x32x32x256 : S16384x256.ShapeCasts S16x32x32x256
  transposes_S16x32x32x256_S16x256x32x32_0_3_1_2 : S16x32x32x256.Transposes [0, 3, 1, 2] S16x256x32x32
  shapeCasts_S16384x2000_S16x32x32x2000 : S16384x2000.ShapeCasts S16x32x32x2000
  transposes_S16x32x32x2000_S16x2000x32x32_0_3_1_2 : S16x32x32x2000.Transposes [0, 3, 1, 2] S16x2000x32x32
  dot_S16384x256_S256x2000_S16384x2000_1_0_0_1_n_n_wf : DotDims.WF S16384x256 S256x2000 S16384x2000 [1] [0] [0] [1] [] []
  dot_S16384x2000_S2000x256_S16384x256_1_0_0_1_n_n_wf : DotDims.WF S16384x2000 S2000x256 S16384x256 [1] [0] [0] [1] [] []

variable [Facts₀]

def dot_S16384x256_S256x2000_S16384x2000_1_0_0_1_n_n : DotDims S16384x256 S256x2000 S16384x2000 where
  lhsContracting := [1]
  rhsContracting := [0]
  lhsNonContracting := [0]
  rhsNonContracting := [1]
  lhsBatch := []
  rhsBatch := []
  wf := dot_S16384x256_S256x2000_S16384x2000_1_0_0_1_n_n_wf
def dot_S16384x2000_S2000x256_S16384x256_1_0_0_1_n_n : DotDims S16384x2000 S2000x256 S16384x256 where
  lhsContracting := [1]
  rhsContracting := [0]
  lhsNonContracting := [0]
  rhsNonContracting := [1]
  lhsBatch := []
  rhsBatch := []
  wf := dot_S16384x2000_S2000x256_S16384x256_1_0_0_1_n_n_wf

class Facts : Prop extends Facts₀ where

variable [Facts]
-- ==== Proof.Spec.lean ====
/-
  What the memory-attention layer computes, as mathematics on the extended reals.

  A token is a position (b, h, w) of the input x : [16, 256, 32, 32]; its feature vector is x[b, ·, h, w].
  Against the memory w : [2000, 256] it has a row of 2000 logits, logit k = ∑ c, x[b, c, h, w] · w[k, c].
  From that row:
    * `rowMax`  — the maximum of the row, taken from −∞ (and once more against −∞);
    * `expo`    — exp (logit k − rowMax);
    * `soft`    — expo k / ∑ j, expo j                                   (the softmax weights);
    * `shrunk`  — max (soft k − τ) 0 · soft k / (|soft k − τ| + ε)       (the hard shrinkage at threshold τ);
    * `attn`    — shrunk k / max (∑ j, |shrunk j|) ε                      (the weights renormalised in the 1-norm).
  The two results are the weights themselves, att[b, k, h, w] = attn k of the token's row, and the read-out
  y[b, c, h, w] = ∑ k, attn k · w[k, c].
  τ, ε and the zero are kept as the f32 words both programs print (0x3B23D70A, 0x2B8CBCCC, 0x00000000): the same
  word denotes the same extended real on both sides, so none is ever evaluated.
-/
import Idealize.ShloMosaic.PureOps.Ideal
import Idealize.ShloMosaic.Lib.ValueIdx

noncomputable section

open scoped BigOperators

namespace Cert.MemoryAttention

open Idealize.ShloMosaic Idealize.ShloMosaic.ValueIdx

/-! ## One row of logits -/

variable {n : ℕ}

/-- The row's maximum, folded from −∞, and taken once more against −∞ (both programs do). -/
def rowMax (l : Fin n → EReal) : EReal :=
  max (Ideal.ofBits .f32 0xFF800000#32) ((Finset.univ : Finset (Fin n)).fold max (Ideal.ofBits .f32 0xFF800000#32) l)

/-- The shifted exponential of entry `k`. -/
def expo (l : Fin n → EReal) (k : Fin n) : EReal := Ideal.exp (l k - rowMax l)

/-- The softmax weight of entry `k`. -/
def soft (l : Fin n → EReal) (k : Fin n) : EReal := Ideal.div (expo l k) (∑ j : Fin n, expo l j)

/-- The hard shrinkage of a weight `a` at the threshold: max (a − τ) 0 · a / (|a − τ| + ε). -/
def shrink (a : EReal) : EReal :=
  Ideal.div (max (a - Ideal.ofBits .f32 0x3B23D70A#32) (Ideal.ofBits .f32 0x00000000#32) * a)
    (max (a - Ideal.ofBits .f32 0x3B23D70A#32) (-(a - Ideal.ofBits .f32 0x3B23D70A#32)) + Ideal.ofBits .f32 0x2B8CBCCC#32)

/-- The shrunk weight of entry `k`. -/
def shrunk (l : Fin n → EReal) (k : Fin n) : EReal := shrink (soft l k)

/-- The weight of entry `k` after the 1-norm renormalisation: shrunk k / max (∑ j, |shrunk j|) ε. -/
def attn (l : Fin n → EReal) (k : Fin n) : EReal :=
  Ideal.div (shrunk l k) (max (∑ j : Fin n, max (shrunk l j) (-(shrunk l j))) (Ideal.ofBits .f32 0x2B8CBCCC#32))

/-! ## The two result arrays -/

abbrev SX : Shape := ⟨4, ![16, 256, 32, 32]⟩
abbrev SW : Shape := ⟨2, ![2000, 256]⟩
abbrev SA : Shape := ⟨4, ![16, 2000, 32, 32]⟩

/-- The logits of the token at (b, h, w): entry `k` is the inner product of its features with memory row `k`. -/
def logits (x : SX.Idx → EReal) (wt : SW.Idx → EReal) (b : Fin 16) (h w : Fin 32) (k : Fin 2000) : EReal :=
  ∑ c : Fin 256, x (ix4 b c h w) * wt (ix2 k c)

/-- The attention map: at (b, k, h, w), weight `k` of the token at (b, h, w). -/
def attOut (x : SX.Idx → EReal) (wt : SW.Idx → EReal) : SA.Idx → EReal :=
  fun i => attn (logits x wt (i 0) (i 2) (i 3)) (i 1)

/-- The read-out: at (b, c, h, w), the token's weights against column `c` of the memory. -/
def yOut (x : SX.Idx → EReal) (wt : SW.Idx → EReal) : SX.Idx → EReal :=
  fun i => ∑ k : Fin 2000, attn (logits x wt (i 0) (i 2) (i 3)) k * wt (ix2 k (i 1))

end Cert.MemoryAttention

end
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KernelRow.lean ====
/-
  The kernel's body at one grid point, read at an index.

  The body takes the point's block of x, `v0 : [1, 256, 16, 32]`, and the whole memory `v4 : [2000, 256]`. It lays the
  block out as a matrix of 512 tokens by 256 features (token `th · 32 + w` is the position (th, w) of the block), multiplies
  by the memory's transpose to get the [512, 2000] logits, and runs every row through the chain of the specification
  (`rowMax`, `expo`, `soft`, `shrunk`, `attn`); the second product contracts the weights with the memory.
  Here the chain is first cut into vector-level definitions, which the body's payload unfolds to, and each is then read
  at an entry (r, k): it is the specification's function of row r of the logits.
-/
import proofs.«161617_j3693671874650_1_alg».proof.Proof.Gen.KernelIdeal.Skeleton
import proofs.«161617_j3693671874650_1_alg».proof.Proof.Spec
import proofs.«161617_j3693671874650_1_alg».proof.Proof.LibRowReduce
import proofs.«161617_j3693671874650_1_alg».proof.Proof.LibKeepdims
import Idealize.ShloMosaic.PureOps.Ideal.Laws
import Idealize.ShloMosaic.Lib.ValueIdx
import Idealize.ShloMosaic.Lib.Pipeline.Value

noncomputable section

open scoped BigOperators

namespace Cert.KernelIdeal.Row

open Cert.KernelIdeal Cert.KernelIdeal.Gen Idealize.ShloMosaic Idealize.ShloMosaic.ValueIdx
open Cert.MemoryAttention Cert.LibRowReduce Cert.LibKeepdims

/-! ## The chain as vector-level definitions -/

section Chain

variable {F : FTy → Type} [FloatOps F]

/-- The rows' maxima. -/
def vMax (v5 : FVec F S512x2000 .f32) : FVec F S512 .f32 :=
  maximumf (broadcast S512 (Scalar.ofBits .f32 0xFF800000#32))
    (multiReduction .maximumf [1] S512 v5 0xFF800000#32 reduces_S512x2000_S512 (.inl rfl) rfl)

/-- One value per row, spread over the row's 2000 columns. -/
def spread (v : FVec F S512 .f32) : FVec F S512x2000 .f32 :=
  broadcastTo S512x2000 (shapeCast S512x1 v shapeCasts_S512_S512x1) broadcasts_S512x1_S512x2000

/-- The shifted exponentials. -/
def vExp (v5 : FVec F S512x2000 .f32) : FVec F S512x2000 .f32 := exp (subf v5 (spread (vMax v5)))

/-- The softmax weights. -/
def vSoft (v5 : FVec F S512x2000 .f32) : FVec F S512x2000 .f32 :=
  divf (vExp v5) (spread (multiReduction .add [1] S512 (vExp v5) 0x00000000#32 reduces_S512x2000_S512 (.inl rfl) rfl))

/-- The shrunk weights. -/
def vShrunk (v5 : FVec F S512x2000 .f32) : FVec F S512x2000 .f32 :=
  divf (mulf (maximumf (subf (vSoft v5) (broadcast S512x2000 (Scalar.ofBits .f32 0x3B23D70A#32)))
      (broadcast S512x2000 (Scalar.ofBits .f32 0x00000000#32))) (vSoft v5))
    (addf (absf (subf (vSoft v5) (broadcast S512x2000 (Scalar.ofBits .f32 0x3B23D70A#32))))
      (broadcast S512x2000 (Scalar.ofBits .f32 0x2B8CBCCC#32)))

/-- The renormalised weights. -/
def vAttn (v5 : FVec F S512x2000 .f32) : FVec F S512x2000 .f32 :=
  divf (vShrunk v5) (broadcastTo S512x2000
    (maximumf (shapeCast S512x1 (multiReduction .add [1] S512 (absf (vShrunk v5)) 0x00000000#32 reduces_S512x2000_S512 (.inl rfl) rfl) shapeCasts_S512_S512x1)
      (broadcast S512x1 (Scalar.ofBits .f32 0x2B8CBCCC#32))) broadcasts_S512x1_S512x2000)

/-- The block's tokens as a [512, 256] matrix. -/
def vTok (v0 : Vec F S1x256x16x32 .f32) : FVec F S512x256 .f32 :=
  shapeCast S512x256 (transpose S16x32x256 [1, 2, 0] (shapeCast S256x16x32 v0 shapeCasts_S1x256x16x32_S256x16x32)
    transposes_S256x16x32_p1_2_0_S16x32x256) shapeCasts_S16x32x256_S512x256

/-- The logits of the block's tokens. -/
def vLogits (v0 : Vec F S1x256x16x32 .f32) (v4 : Vec F S2000x256 .f32) : FVec F S512x2000 .f32 :=
  matmul dot_S512x256_S2000x256_S512x2000_1_1_0_0_n_n none (vTok v0) v4 (constant S512x2000 .f32 0x00000000#32)

/-- The read-out of the block's tokens, before it is laid back out. -/
def vRead (v0 : Vec F S1x256x16x32 .f32) (v4 : Vec F S2000x256 .f32) : FVec F S512x256 .f32 :=
  matmul dot_S512x2000_S2000x256_S512x256_1_0_0_1_n_n none (k0_pay3 v0 v4) v4 (constant S512x256 .f32 0x00000000#32)

/-- The body's attention payload is the chain applied to the logits. -/
theorem pay3_eq (v0 : Vec F S1x256x16x32 .f32) (v4 : Vec F S2000x256 .f32) : k0_pay3 v0 v4 = vAttn (vLogits v0 v4) := rfl

/-- The body's read-out payload is the second product, cast to [16, 32, 256] and transposed to [256, 16, 32]. -/
theorem pay4_eq (v0 : Vec F S1x256x16x32 .f32) (v4 : Vec F S2000x256 .f32) :
    k0_pay4 v0 v4 = transpose S256x16x32 [2, 0, 1] (shapeCast S16x32x256 (vRead v0 v4) shapeCasts_S512x256_S16x32x256)
      transposes_S16x32x256_p2_0_1_S256x16x32 := rfl

end Chain

/-! ## The chain read at an entry -/

theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl

theorem spread_apply (v : FVec Ideal S512 .f32) (r : Fin 512) (k : Fin 2000) : spread v (ix2 r k) = v (ix1 r) := by
  unfold spread
  rw [broadcastTo_a1_ab_apply, shapeCast_a_a1_apply]

theorem vMax_apply (v5 : FVec Ideal S512x2000 .f32) (r : Fin 512) : vMax v5 (ix1 r) = rowMax (fun k => v5 (ix2 r k)) := by
  unfold vMax rowMax
  rw [maximumf_apply, broadcast_apply]
  exact congrArg (max _) (multiReduction_maximumf_row v5 _ _ _ _ r)

theorem vExp_apply (v5 : FVec Ideal S512x2000 .f32) (r : Fin 512) (k : Fin 2000) :
    vExp v5 (ix2 r k) = expo (fun k' => v5 (ix2 r k')) k := by
  unfold vExp expo
  rw [exp_apply, subf_apply, spread_apply, vMax_apply]

theorem vSoft_apply (v5 : FVec Ideal S512x2000 .f32) (r : Fin 512) (k : Fin 2000) :
    vSoft v5 (ix2 r k) = soft (fun k' => v5 (ix2 r k')) k := by
  unfold vSoft soft
  rw [divf_apply, spread_apply]
  refine congrArg₂ Ideal.div (vExp_apply v5 r k) ?_
  refine (multiReduction_add_row (vExp v5) _ _ _ _ r).trans ?_
  exact Finset.sum_congr rfl fun j _ => vExp_apply v5 r j

theorem vShrunk_apply (v5 : FVec Ideal S512x2000 .f32) (r : Fin 512) (k : Fin 2000) :
    vShrunk v5 (ix2 r k) = shrunk (fun k' => v5 (ix2 r k')) k := by
  unfold vShrunk shrunk shrink
  simp only [divf_apply, mulf_apply, maximumf_apply, subf_apply, addf_apply, absf_apply, broadcast_apply, vSoft_apply]
  rfl

theorem vAttn_apply (v5 : FVec Ideal S512x2000 .f32) (r : Fin 512) (k : Fin 2000) :
    vAttn v5 (ix2 r k) = attn (fun k' => v5 (ix2 r k')) k := by
  unfold vAttn attn
  rw [divf_apply, broadcastTo_a1_ab_apply, maximumf_apply, shapeCast_a_a1_apply, broadcast_apply]
  refine congrArg₂ Ideal.div (vShrunk_apply v5 r k) (congrArg₂ max ?_ rfl)
  refine (multiReduction_add_row (absf (vShrunk v5)) _ _ _ _ r).trans ?_
  exact Finset.sum_congr rfl fun j _ => by rw [absf_apply, vShrunk_apply]

/-! ## The tokens' matrix and the two products -/

/-- Token `th · 32 + w` of the block. -/
def tok (th : Fin 16) (w : Fin 32) : Fin 512 := ⟨th.val * 32 + w.val, by have := th.isLt; have := w.isLt; omega⟩

/-- Feature `c` of token (th, w) is the block's entry (0, c, th, w). -/
theorem vTok_apply (v0 : Vec Ideal S1x256x16x32 .f32) (th : Fin 16) (w : Fin 32) (c : Fin 256) :
    vTok v0 (ix2 (tok th w) c) = v0 (ix4 (0 : Fin 1) c th w) := by
  unfold vTok
  refine (shapeCast_apply _ _ (ix2 (tok th w) c) (ix3 th w c) ?_).trans ?_
  · rw [Shape.rowMajor_val_three, Shape.rowMajor_val_two]; rfl
  refine (transpose_apply [1, 2, 0] _ _ (ix3 th w c) (ix3 c th w) ?_).trans ?_
  · intro b; match b with | ⟨0, _⟩ => rfl | ⟨1, _⟩ => rfl | ⟨2, _⟩ => rfl
  refine shapeCast_apply _ _ (ix3 c th w) (ix4 (0 : Fin 1) c th w) ?_
  rw [Shape.rowMajor_val_four, Shape.rowMajor_val_three]
  show ((0 * 256 + c.val) * 16 + th.val) * 32 + w.val = (c.val * 16 + th.val) * 32 + w.val
  omega

theorem lhs_logits_0 (i : S512x2000.Idx) (q : dot_S512x256_S2000x256_S512x2000_1_1_0_0_n_n.contr.Idx) :
    (dot_S512x256_S2000x256_S512x2000_1_1_0_0_n_n.lhsIdx i q 0).val = (i 0).val := by
  unfold DotDims.lhsIdx
  rw [dif_neg (show ¬(0 : Fin S512x256.rank) ∈ dot_S512x256_S2000x256_S512x2000_1_1_0_0_n_n.lhsBatch by decide), dif_pos (show (0 : Fin S512x256.rank) ∈ dot_S512x256_S2000x256_S512x2000_1_1_0_0_n_n.lhsNonContracting by decide)]
  rfl
theorem lhs_logits_1 (i : S512x2000.Idx) (q : dot_S512x256_S2000x256_S512x2000_1_1_0_0_n_n.contr.Idx) :
    (dot_S512x256_S2000x256_S512x2000_1_1_0_0_n_n.lhsIdx i q 1).val = (q ⟨0, by decide⟩).val :=
  dot_S512x256_S2000x256_S512x2000_1_1_0_0_n_n.lhsIdx_val_of_single rfl i q
theorem rhs_logits_0 (i : S512x2000.Idx) (q : dot_S512x256_S2000x256_S512x2000_1_1_0_0_n_n.contr.Idx) :
    (dot_S512x256_S2000x256_S512x2000_1_1_0_0_n_n.rhsIdx i q 0).val = (i 1).val := by
  unfold DotDims.rhsIdx
  rw [dif_neg (show ¬(0 : Fin S2000x256.rank) ∈ dot_S512x256_S2000x256_S512x2000_1_1_0_0_n_n.rhsBatch by decide), dif_pos (show (0 : Fin S2000x256.rank) ∈ dot_S512x256_S2000x256_S512x2000_1_1_0_0_n_n.rhsNonContracting by decide)]
  rfl
theorem rhs_logits_1 (i : S512x2000.Idx) (q : dot_S512x256_S2000x256_S512x2000_1_1_0_0_n_n.contr.Idx) :
    (dot_S512x256_S2000x256_S512x2000_1_1_0_0_n_n.rhsIdx i q 1).val = (q ⟨0, by decide⟩).val :=
  dot_S512x256_S2000x256_S512x2000_1_1_0_0_n_n.rhsIdx_val_of_single rfl i q

/-- Logit (r, k): the inner product of token `r`'s features with memory row `k`. -/
theorem vLogits_apply (v0 : Vec Ideal S1x256x16x32 .f32) (v4 : Vec Ideal S2000x256 .f32) (r : Fin 512) (k : Fin 2000) :
    vLogits v0 v4 (ix2 r k) = ∑ c : Fin 256, vTok v0 (ix2 r c) * v4 (ix2 k c) := by
  unfold vLogits
  generalize vTok v0 = y0
  simp only [matmul]
  rw [Ideal.matmul_constant_zero_apply, ← Equiv.sum_comp (contrEquiv1 dot_S512x256_S2000x256_S512x2000_1_1_0_0_n_n 256 rfl rfl).symm]
  refine Finset.sum_congr rfl fun c _ => ?_
  have hk := contrEquiv1_symm_val dot_S512x256_S2000x256_S512x2000_1_1_0_0_n_n 256 rfl rfl c
  have el : dot_S512x256_S2000x256_S512x2000_1_1_0_0_n_n.lhsIdx (ix2 r k) ((contrEquiv1 dot_S512x256_S2000x256_S512x2000_1_1_0_0_n_n 256 rfl rfl).symm c) = ix2 r c := funext fun a => Fin.ext (by
    match a with
    | ⟨0, _⟩ => exact lhs_logits_0 _ _
    | ⟨1, _⟩ => exact (lhs_logits_1 _ _).trans hk)
  have er : dot_S512x256_S2000x256_S512x2000_1_1_0_0_n_n.rhsIdx (ix2 r k) ((contrEquiv1 dot_S512x256_S2000x256_S512x2000_1_1_0_0_n_n 256 rfl rfl).symm c) = ix2 k c := funext fun a => Fin.ext (by
    match a with
    | ⟨0, _⟩ => exact rhs_logits_0 _ _
    | ⟨1, _⟩ => exact (rhs_logits_1 _ _).trans hk)
  rw [el, er]

theorem lhs_read_0 (i : S512x256.Idx) (q : dot_S512x2000_S2000x256_S512x256_1_0_0_1_n_n.contr.Idx) :
    (dot_S512x2000_S2000x256_S512x256_1_0_0_1_n_n.lhsIdx i q 0).val = (i 0).val := by
  unfold DotDims.lhsIdx
  rw [dif_neg (show ¬(0 : Fin S512x2000.rank) ∈ dot_S512x2000_S2000x256_S512x256_1_0_0_1_n_n.lhsBatch by decide), dif_pos (show (0 : Fin S512x2000.rank) ∈ dot_S512x2000_S2000x256_S512x256_1_0_0_1_n_n.lhsNonContracting by decide)]
  rfl
theorem lhs_read_1 (i : S512x256.Idx) (q : dot_S512x2000_S2000x256_S512x256_1_0_0_1_n_n.contr.Idx) :
    (dot_S512x2000_S2000x256_S512x256_1_0_0_1_n_n.lhsIdx i q 1).val = (q ⟨0, by decide⟩).val :=
  dot_S512x2000_S2000x256_S512x256_1_0_0_1_n_n.lhsIdx_val_of_single rfl i q
theorem rhs_read_0 (i : S512x256.Idx) (q : dot_S512x2000_S2000x256_S512x256_1_0_0_1_n_n.contr.Idx) :
    (dot_S512x2000_S2000x256_S512x256_1_0_0_1_n_n.rhsIdx i q 0).val = (q ⟨0, by decide⟩).val :=
  dot_S512x2000_S2000x256_S512x256_1_0_0_1_n_n.rhsIdx_val_of_single rfl i q
theorem rhs_read_1 (i : S512x256.Idx) (q : dot_S512x2000_S2000x256_S512x256_1_0_0_1_n_n.contr.Idx) :
    (dot_S512x2000_S2000x256_S512x256_1_0_0_1_n_n.rhsIdx i q 1).val = (i 1).val := by
  unfold DotDims.rhsIdx
  rw [dif_neg (show ¬(1 : Fin S2000x256.rank) ∈ dot_S512x2000_S2000x256_S512x256_1_0_0_1_n_n.rhsBatch by decide), dif_pos (show (1 : Fin S2000x256.rank) ∈ dot_S512x2000_S2000x256_S512x256_1_0_0_1_n_n.rhsNonContracting by decide)]
  rfl

/-- Read-out (r, c): token `r`'s weights against column `c` of the memory. -/
theorem vRead_apply (v0 : Vec Ideal S1x256x16x32 .f32) (v4 : Vec Ideal S2000x256 .f32) (r : Fin 512) (c : Fin 256) :
    vRead v0 v4 (ix2 r c) = ∑ k : Fin 2000, k0_pay3 v0 v4 (ix2 r k) * v4 (ix2 k c) := by
  unfold vRead
  generalize k0_pay3 v0 v4 = y0
  simp only [matmul]
  rw [Ideal.matmul_constant_zero_apply, ← Equiv.sum_comp (contrEquiv1 dot_S512x2000_S2000x256_S512x256_1_0_0_1_n_n 2000 rfl rfl).symm]
  refine Finset.sum_congr rfl fun k _ => ?_
  have hk := contrEquiv1_symm_val dot_S512x2000_S2000x256_S512x256_1_0_0_1_n_n 2000 rfl rfl k
  have el : dot_S512x2000_S2000x256_S512x256_1_0_0_1_n_n.lhsIdx (ix2 r c) ((contrEquiv1 dot_S512x2000_S2000x256_S512x256_1_0_0_1_n_n 2000 rfl rfl).symm k) = ix2 r k := funext fun a => Fin.ext (by
    match a with
    | ⟨0, _⟩ => exact lhs_read_0 _ _
    | ⟨1, _⟩ => exact (lhs_read_1 _ _).trans hk)
  have er : dot_S512x2000_S2000x256_S512x256_1_0_0_1_n_n.rhsIdx (ix2 r c) ((contrEquiv1 dot_S512x2000_S2000x256_S512x256_1_0_0_1_n_n 2000 rfl rfl).symm k) = ix2 k c := funext fun a => Fin.ext (by
    match a with
    | ⟨0, _⟩ => exact (rhs_read_0 _ _).trans hk
    | ⟨1, _⟩ => exact rhs_read_1 _ _)
  rw [el, er]

/-! ## The two payloads at an entry, over the block and the memory -/

/-- The logits row of token (th, w) of the block `v0` against the memory `v4`. -/
def blockLogits (v0 : Vec Ideal S1x256x16x32 .f32) (v4 : Vec Ideal S2000x256 .f32) (th : Fin 16) (w : Fin 32) (k : Fin 2000) : EReal :=
  ∑ c : Fin 256, v0 (ix4 (0 : Fin 1) c th w) * v4 (ix2 k c)

/-- The attention payload at (token (th, w), k). -/
theorem pay3_apply (v0 : Vec Ideal S1x256x16x32 .f32) (v4 : Vec Ideal S2000x256 .f32) (th : Fin 16) (w : Fin 32) (k : Fin 2000) :
    k0_pay3 v0 v4 (ix2 (tok th w) k) = attn (blockLogits v0 v4 th w) k := by
  rw [pay3_eq, vAttn_apply]
  refine congrArg (fun l => attn l k) (funext fun k' => ?_)
  rw [vLogits_apply]
  unfold blockLogits
  exact Finset.sum_congr rfl fun c _ => by rw [vTok_apply]

/-- The read-out payload at (c, th, w). -/
theorem pay4_apply (v0 : Vec Ideal S1x256x16x32 .f32) (v4 : Vec Ideal S2000x256 .f32) (c : Fin 256) (th : Fin 16) (w : Fin 32) :
    k0_pay4 v0 v4 (ix3 c th w) = ∑ k : Fin 2000, attn (blockLogits v0 v4 th w) k * v4 (ix2 k c) := by
  rw [pay4_eq]
  refine (transpose_apply [2, 0, 1] _ _ (ix3 c th w) (ix3 th w c) ?_).trans ?_
  · intro b; match b with | ⟨0, _⟩ => rfl | ⟨1, _⟩ => rfl | ⟨2, _⟩ => rfl
  refine (shapeCast_apply _ _ (ix3 th w c) (ix2 (tok th w) c) ?_).trans ?_
  · rw [Shape.rowMajor_val_two, Shape.rowMajor_val_three]; rfl
  rw [vRead_apply]
  exact Finset.sum_congr rfl fun k _ => by rw [pay3_apply]

end Cert.KernelIdeal.Row

end
-- ==== Proof.KernelValue.lean ====
/-
  From the kernel's blocks to its two result arrays.

  Grid point `t` = (b, h) stages the block x[b, ·, 16h .. 16h + 16, ·] and the whole memory, and writes back the blocks
  y[b, ·, 16h .. 16h + 16, ·] and att[b, ·, 16h .. 16h + 16, ·]: a block's coordinate `j` on an axis is the array's coordinate
  index · size + j. A token of the block is a token of the array, its logits the array's logits of that token, so what
  each point writes back is that block of the specification's `yOut` / `attOut` of the argument arrays. The 32 blocks
  tile each result (row `i 2` lies in tile `i 2 / 16`), hence the arrays end as `yOut` and `attOut`.
-/
import proofs.«161617_j3693671874650_1_alg».proof.Proof.ValueLeg
import proofs.«161617_j3693671874650_1_alg».proof.Proof.KernelRow
import Idealize.ShloMosaic.Lib.Pipeline.Value

noncomputable section

open scoped BigOperators

namespace Cert.KernelIdeal.Arrays

open Cert.KernelIdeal Cert.KernelIdeal.Gen Cert.KernelIdeal.ValueLeg Cert.KernelIdeal.Row
open Idealize.ShloMosaic Idealize.ShloMosaic.TcCoe Idealize.SL.Sem Idealize.ShloMosaic.ValueIdx Cert.MemoryAttention
open Idealize.ShloMosaic.Pipeline (Dat)

/-! ## A block of the specification -/

/-- The attention block at block index `y`, when the staged block `P0` holds x at the tokens of the array index `i` above
    `y` and `P1` is the memory: the specification's attention map at `i`. -/
theorem att_block (X : SX.Idx → EReal) (W : SW.Idx → EReal) (P0 : Vec Ideal S1x256x16x32 .f32) (P1 : Vec Ideal S2000x256 .f32)
    (i : SA.Idx) (y : S1x2000x16x32.Idx) (h1 : (i 1).val = (y 1).val)
    (hP0 : ∀ cc : Fin 256, P0 (ix4 (0 : Fin 1) cc (y 2) (y 3)) = X (ix4 (i 0) cc (i 2) (i 3)))
    (hP1 : ∀ (k : Fin 2000) (cc : Fin 256), P1 (ix2 k cc) = W (ix2 k cc)) :
    E3 P0 P1 y = attOut X W i := by
  obtain ⟨u, k, th, w, rfl⟩ : ∃ (u : Fin 1) (k : Fin 2000) (th : Fin 16) (w : Fin 32), y = ix4 u k th w := ⟨y 0, y 1, y 2, y 3, eq_ix4 y⟩
  obtain ⟨b, k', H, w', rfl⟩ : ∃ (b : Fin 16) (k' : Fin 2000) (H w' : Fin 32), i = ix4 b k' H w' := ⟨i 0, i 1, i 2, i 3, eq_ix4 i⟩
  have hk : k' = k := Fin.ext h1
  subst hk
  show k0_pay3 P0 P1 (ix3_0 (ix4 u k' th w)) = attn (logits X W b H w') k'
  have e : ix3_0 (ix4 u k' th w) = ix2 (tok th w) k' := funext fun a => Fin.ext (by match a with | ⟨0, _⟩ => rfl | ⟨1, _⟩ => rfl)
  rw [e, pay3_apply]
  refine congrArg (fun l => attn l k') (funext fun k2 => ?_)
  unfold blockLogits logits
  exact Finset.sum_congr rfl fun cc _ => congrArg₂ (· * ·) (hP0 cc) (hP1 k2 cc)

/-- The read-out block at block index `y`, likewise: the specification's read-out at the array index `i` above `y`. -/
theorem y_block (X : SX.Idx → EReal) (W : SW.Idx → EReal) (P0 : Vec Ideal S1x256x16x32 .f32) (P1 : Vec Ideal S2000x256 .f32)
    (i : SX.Idx) (y : S1x256x16x32.Idx) (h1 : (i 1).val = (y 1).val)
    (hP0 : ∀ cc : Fin 256, P0 (ix4 (0 : Fin 1) cc (y 2) (y 3)) = X (ix4 (i 0) cc (i 2) (i 3)))
    (hP1 : ∀ (k : Fin 2000) (cc : Fin 256), P1 (ix2 k cc) = W (ix2 k cc)) :
    E2 P0 P1 y = yOut X W i := by
  obtain ⟨u, c, th, w, rfl⟩ : ∃ (u : Fin 1) (c : Fin 256) (th : Fin 16) (w : Fin 32), y = ix4 u c th w := ⟨y 0, y 1, y 2, y 3, eq_ix4 y⟩
  obtain ⟨b, c', H, w', rfl⟩ : ∃ (b : Fin 16) (c' : Fin 256) (H w' : Fin 32), i = ix4 b c' H w' := ⟨i 0, i 1, i 2, i 3, eq_ix4 i⟩
  have hc : c' = c := Fin.ext h1
  subst hc
  show k0_pay4 P0 P1 (ix2_0 (ix4 u c' th w)) = ∑ k : Fin 2000, attn (logits X W b H w') k * W (ix2 k c')
  have e : ix2_0 (ix4 u c' th w) = ix3 c' th w := funext fun a => Fin.ext (by match a with | ⟨0, _⟩ => rfl | ⟨1, _⟩ => rfl | ⟨2, _⟩ => rfl)
  rw [e, pay4_apply]
  refine Finset.sum_congr rfl fun k _ => ?_
  refine congrArg₂ (· * ·) (congrArg (fun l => attn l k) (funext fun k2 => ?_)) (hP1 k c')
  unfold blockLogits logits
  exact Finset.sum_congr rfl fun cc _ => congrArg₂ (· * ·) (hP0 cc) (hP1 k2 cc)

/-! ## The index maps, decided over the 32 grid points -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The x window moves with both result windows (batch on axis 0, row tile on axis 2, block index 0 on the two whole
    axes), and the memory's window stays at block (0, 0). -/
theorem idx_facts : ∀ t : Fin cfg0.N,
    win0_0.index t (0 : Fin 4) = win0_2.index t (0 : Fin 4) ∧ win0_0.index t (1 : Fin 4) = 0 ∧ win0_2.index t (1 : Fin 4) = 0
    ∧ win0_0.index t (2 : Fin 4) = win0_2.index t (2 : Fin 4) ∧ win0_0.index t (3 : Fin 4) = 0 ∧ win0_2.index t (3 : Fin 4) = 0
    ∧ win0_3.index t (0 : Fin 4) = win0_2.index t (0 : Fin 4) ∧ win0_3.index t (1 : Fin 4) = 0
    ∧ win0_3.index t (2 : Fin 4) = win0_2.index t (2 : Fin 4) ∧ win0_3.index t (3 : Fin 4) = 0
    ∧ win0_1.index t (0 : Fin 2) = 0 ∧ win0_1.index t (1 : Fin 2) = 0 :=
  (by decide +kernel : ∀ t : Fin grid0.N, _)

/-- Every (batch, row tile) is some point's block, for each result window. -/
theorem idx_ontoY : ∀ (q0 : Fin 16) (q2 : Fin 2), ∃ t : Fin cfg0.N, win0_2.index t = ![q0.val, 0, q2.val, 0] :=
  (by decide +kernel : ∀ (q0 : Fin 16) (q2 : Fin 2), ∃ t : Fin grid0.N, win0_2.index t = ![q0.val, 0, q2.val, 0])
theorem idx_ontoAtt : ∀ (q0 : Fin 16) (q2 : Fin 2), ∃ t : Fin cfg0.N, win0_3.index t = ![q0.val, 0, q2.val, 0] :=
  (by decide +kernel : ∀ (q0 : Fin 16) (q2 : Fin 2), ∃ t : Fin grid0.N, win0_3.index t = ![q0.val, 0, q2.val, 0])

variable (m : (ℓ : Loc nD τ sig) → Buf (Elt Ideal) ℓ) (ρ : Dev nD → PrngReg)

/-! ## What each point writes back -/

/-- Point `t` writes back block `t` of the specification's attention map of the argument arrays. -/
theorem flushedAtt_eq (c : Dev nD) (t : Fin cfg0.N) :
    (dats m 0 c).flushed 3 t = ((cfg0.win 3).blk t).view.read (Elt Ideal) (attOut (V m c main_arg0) (V m c main_arg1)) := by
  rw [flushed3]
  unfold out0_3
  simp only [View.ld_unit_zero (S := S1x256x16x32) hz4, View.ld_unit_zero (S := S2000x256) hz2]
  obtain ⟨e0, e1, e2, e3, e4, e5, e6, e7, e8, e9, e10, e11⟩ := idx_facts t
  funext y
  show View.canon [(⟨r0_2, k0_pay2 (k0_pay5 (iblk m c 0 t) (iblk m c 1 t))⟩ : View.Piece (Elt Ideal) S1x2000x16x32 .f32)] y
    = attOut (V m c main_arg0) (V m c main_arg1) (((cfg0.win 3).blk t).view.emb y)
  refine (canon3_eq (iblk m c 0 t) (iblk m c 1 t) y).trans ?_
  refine att_block (V m c main_arg0) (V m c main_arg1) (iblk m c 0 t) (iblk m c 1 t) (((cfg0.win 3).blk t).view.emb y) y ?_ ?_ ?_
  · show win0_3.index t (1 : Fin 4) * 2000 + 1 * (y 1).val = (y 1).val; omega
  · intro cc
    show V m c main_arg0 (((cfg0.win 0).blk t).view.emb (ix4 (0 : Fin 1) cc (y 2) (y 3))) = V m c main_arg0 _
    refine congrArg _ (funext fun a => Fin.ext ?_)
    have hy0 : (y 0).val < 1 := (y 0).isLt
    match a with
    | ⟨0, _⟩ => show win0_0.index t (0 : Fin 4) * 1 + 1 * 0 = win0_3.index t (0 : Fin 4) * 1 + 1 * (y 0).val; omega
    | ⟨1, _⟩ => show win0_0.index t (1 : Fin 4) * 256 + 1 * cc.val = cc.val; omega
    | ⟨2, _⟩ => show win0_0.index t (2 : Fin 4) * 16 + 1 * (y 2).val = win0_3.index t (2 : Fin 4) * 16 + 1 * (y 2).val; omega
    | ⟨3, _⟩ => show win0_0.index t (3 : Fin 4) * 32 + 1 * (y 3).val = win0_3.index t (3 : Fin 4) * 32 + 1 * (y 3).val; omega
  · intro k cc
    show V m c main_arg1 (((cfg0.win 1).blk t).view.emb (ix2 k cc)) = V m c main_arg1 (ix2 k cc)
    refine congrArg _ (funext fun a => Fin.ext ?_)
    match a with
    | ⟨0, _⟩ => show win0_1.index t (0 : Fin 2) * 2000 + 1 * k.val = k.val; omega
    | ⟨1, _⟩ => show win0_1.index t (1 : Fin 2) * 256 + 1 * cc.val = cc.val; omega

/-- Point `t` writes back block `t` of the specification's read-out of the argument arrays. -/
theorem flushedY_eq (c : Dev nD) (t : Fin cfg0.N) :
    (dats m 0 c).flushed 2 t = ((cfg0.win 2).blk t).view.read (Elt Ideal) (yOut (V m c main_arg0) (V m c main_arg1)) := by
  rw [flushed2]
  unfold out0_2
  simp only [View.ld_unit_zero (S := S1x256x16x32) hz4, View.ld_unit_zero (S := S2000x256) hz2]
  obtain ⟨e0, e1, e2, e3, e4, e5, e6, e7, e8, e9, e10, e11⟩ := idx_facts t
  funext y
  show View.canon [(⟨r0_0, k0_pay1 (k0_pay4 (iblk m c 0 t) (iblk m c 1 t))⟩ : View.Piece (Elt Ideal) S1x256x16x32 .f32)] y
    = yOut (V m c main_arg0) (V m c main_arg1) (((cfg0.win 2).blk t).view.emb y)
  refine (canon2_eq (iblk m c 0 t) (iblk m c 1 t) y).trans ?_
  refine y_block (V m c main_arg0) (V m c main_arg1) (iblk m c 0 t) (iblk m c 1 t) (((cfg0.win 2).blk t).view.emb y) y ?_ ?_ ?_
  · show win0_2.index t (1 : Fin 4) * 256 + 1 * (y 1).val = (y 1).val; omega
  · intro cc
    show V m c main_arg0 (((cfg0.win 0).blk t).view.emb (ix4 (0 : Fin 1) cc (y 2) (y 3))) = V m c main_arg0 _
    refine congrArg _ (funext fun a => Fin.ext ?_)
    have hy0 : (y 0).val < 1 := (y 0).isLt
    match a with
    | ⟨0, _⟩ => show win0_0.index t (0 : Fin 4) * 1 + 1 * 0 = win0_2.index t (0 : Fin 4) * 1 + 1 * (y 0).val; omega
    | ⟨1, _⟩ => show win0_0.index t (1 : Fin 4) * 256 + 1 * cc.val = cc.val; omega
    | ⟨2, _⟩ => show win0_0.index t (2 : Fin 4) * 16 + 1 * (y 2).val = win0_2.index t (2 : Fin 4) * 16 + 1 * (y 2).val; omega
    | ⟨3, _⟩ => show win0_0.index t (3 : Fin 4) * 32 + 1 * (y 3).val = win0_2.index t (3 : Fin 4) * 32 + 1 * (y 3).val; omega
  · intro k cc
    show V m c main_arg1 (((cfg0.win 1).blk t).view.emb (ix2 k cc)) = V m c main_arg1 (ix2 k cc)
    refine congrArg _ (funext fun a => Fin.ext ?_)
    match a with
    | ⟨0, _⟩ => show win0_1.index t (0 : Fin 2) * 2000 + 1 * k.val = k.val; omega
    | ⟨1, _⟩ => show win0_1.index t (1 : Fin 2) * 256 + 1 * cc.val = cc.val; omega

/-! ## The blocks tile the arrays -/

theorem mem_blkAtt (t : Fin cfg0.N) (i : S16x2000x32x32.Idx) :
    i ∈ ((cfg0.win 3).blk t).view.set ↔ ∀ a : Fin 4, win0_3.index t a * S1x2000x16x32.size a ≤ (i a).val ∧ (i a).val < win0_3.index t a * S1x2000x16x32.size a + S1x2000x16x32.size a := by
  show i ∈ ((View.whole main_v0_1).slice (win0_3.rect t)).set ↔ _
  rw [View.set_slice_whole, Rect.mem_set_unit]
  exact Iff.rfl

theorem mem_blkY (t : Fin cfg0.N) (i : S16x256x32x32.Idx) :
    i ∈ ((cfg0.win 2).blk t).view.set ↔ ∀ a : Fin 4, win0_2.index t a * S1x256x16x32.size a ≤ (i a).val ∧ (i a).val < win0_2.index t a * S1x256x16x32.size a + S1x256x16x32.size a := by
  show i ∈ ((View.whole main_v0_0).slice (win0_2.rect t)).set ↔ _
  rw [View.set_slice_whole, Rect.mem_set_unit]
  exact Iff.rfl

/-- Every index of the attention map lies in the block of its batch and row tile. -/
theorem coverAtt (i : S16x2000x32x32.Idx) : ∃ t : Fin cfg0.N, (cfg0.win 3).flush t = true ∧ i ∈ ((cfg0.win 3).blk t).view.set := by
  have hi0 : (i 0).val < 16 := (i 0).isLt
  have hi1 : (i 1).val < 2000 := (i 1).isLt
  have hi2 : (i 2).val < 32 := (i 2).isLt
  have hi3 : (i 3).val < 32 := (i 3).isLt
  obtain ⟨t, ht⟩ := idx_ontoAtt ⟨(i 0).val, hi0⟩ ⟨(i 2).val / 16, by omega⟩
  have q0 : win0_3.index t (0 : Fin 4) = (i 0).val := congrFun ht 0
  have q1 : win0_3.index t (1 : Fin 4) = 0 := congrFun ht 1
  have q2 : win0_3.index t (2 : Fin 4) = (i 2).val / 16 := congrFun ht 2
  have q3 : win0_3.index t (3 : Fin 4) = 0 := congrFun ht 3
  refine ⟨t, flush0_3 t, ?_⟩
  rw [mem_blkAtt]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 2000 ≤ (i 1).val ∧ (i 1).val < win0_3.index t (1 : Fin 4) * 2000 + 2000; omega
  | ⟨2, _⟩ => show win0_3.index t (2 : Fin 4) * 16 ≤ (i 2).val ∧ (i 2).val < win0_3.index t (2 : Fin 4) * 16 + 16; omega
  | ⟨3, _⟩ => show win0_3.index t (3 : Fin 4) * 32 ≤ (i 3).val ∧ (i 3).val < win0_3.index t (3 : Fin 4) * 32 + 32; omega

/-- Every index of the read-out lies in the block of its batch and row tile. -/
theorem coverY (i : S16x256x32x32.Idx) : ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 32 := (i 2).isLt
  have hi3 : (i 3).val < 32 := (i 3).isLt
  obtain ⟨t, ht⟩ := idx_ontoY ⟨(i 0).val, hi0⟩ ⟨(i 2).val / 16, by omega⟩
  have q0 : win0_2.index t (0 : Fin 4) = (i 0).val := congrFun ht 0
  have q1 : win0_2.index t (1 : Fin 4) = 0 := congrFun ht 1
  have q2 : win0_2.index t (2 : Fin 4) = (i 2).val / 16 := congrFun ht 2
  have q3 : win0_2.index t (3 : Fin 4) = 0 := congrFun ht 3
  refine ⟨t, flush0_2 t, ?_⟩
  rw [mem_blkY]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 256 ≤ (i 1).val ∧ (i 1).val < win0_2.index t (1 : Fin 4) * 256 + 256; omega
  | ⟨2, _⟩ => show win0_2.index t (2 : Fin 4) * 16 ≤ (i 2).val ∧ (i 2).val < win0_2.index t (2 : Fin 4) * 16 + 16; omega
  | ⟨3, _⟩ => show win0_2.index t (3 : Fin 4) * 32 ≤ (i 3).val ∧ (i 3).val < win0_2.index t (3 : Fin 4) * 32 + 32; omega

/-! ## The arrays after the run -/

theorem finalAtt (c : Dev nD) :
    (dats m 0 c).arrAt 3 cfg0.N = attOut (m ((c : Thread nD τ).loc main_arg0)) (m ((c : Thread nD τ).loc main_arg1)) :=
  (dats m 0 c).arrAt_eq_of_cover 3 (attOut (V m c main_arg0) (V m c main_arg1)) (fun t _ => flushedAtt_eq m c t) coverAtt

theorem finalY (c : Dev nD) :
    (dats m 0 c).arrAt 2 cfg0.N = yOut (m ((c : Thread nD τ).loc main_arg0)) (m ((c : Thread nD τ).loc main_arg1)) :=
  (dats m 0 c).arrAt_eq_of_cover 2 (yOut (V m c main_arg0) (V m c main_arg1)) (fun t _ => flushedY_eq m c t) coverY

/-- Every weakly fair execution of the idealized kernel ends with the read-out and the attention map of the
    specification in its two result arrays, the arguments unchanged. -/
theorem run : θ_run defs (onTc (τ := τ) (main (F := Ideal))) ⟨m, fun _ => 0, ρ⟩ fun r => ∀ c : Dev nD,
      r.2.mem ((c : Thread nD τ).loc main_v0_0) = yOut (m ((c : Thread nD τ).loc main_arg0)) (m ((c : Thread nD τ).loc main_arg1))
      ∧ r.2.mem ((c : Thread nD τ).loc main_v0_1) = attOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalY m c), (h c).2.1.trans (finalAtt m c), (h c).2.2.1, (h c).2.2.2⟩)
    (run_blocks m ρ)

end Cert.KernelIdeal.Arrays

end
-- ==== Proof.RefRow.lean ====
/-
  The reference's stages, read at one token's row.

  The reference lays x out as 16384 tokens by 256 features — token `(b · 32 + h) · 32 + w` is the position (b, h, w) —,
  multiplies by the memory's transpose, and runs the [16384, 2000] logits through the same chain as the specification,
  one host operation at a time. Each stage at (n, k) is the specification's function of row `n` of the logits; the
  layout operations before and after are index arithmetic in base 32 · 32 · 256 and 32 · 32 · 2000.
-/
import proofs.«161617_j3693671874650_1_alg».proof.Proof.Gen.ReferenceIdeal.Read
import proofs.«161617_j3693671874650_1_alg».proof.Proof.Spec
import proofs.«161617_j3693671874650_1_alg».proof.Proof.LibRowReduce
import Idealize.ShloMosaic.PureOps.Ideal.Laws
import Idealize.ShloMosaic.Lib.ValueIdx

noncomputable section

open scoped BigOperators

namespace Cert.ReferenceIdeal.Row

open Cert.ReferenceIdeal Cert.ReferenceIdeal.Gen Cert.ReferenceIdeal.Read Idealize.ShloMosaic Idealize.ShloMosaic.ValueIdx
open Cert.MemoryAttention Cert.LibRowReduce

variable (x0 : (⟨S16x256x32x32, .f32⟩ : BufTy).Contents (Elt Ideal)) (x1 : (⟨S2000x256, .f32⟩ : BufTy).Contents (Elt Ideal))

/-- Row `n` of the reference's logits. -/
def row (n : Fin 16384) : Fin 2000 → EReal := fun k => val_main_v3 (F := Ideal) x0 x1 (ix2 n k)

/-! ## The chain, stage by stage -/

/-- A column entry spread over the row reads the row's value. -/
theorem col_idx (n : Fin 16384) (k : Fin 2000) : idx_main_v7 (idx_main_v8 (ix2 n k)) = ix1 n :=
  funext fun a => Fin.ext (by match a with | ⟨0, _⟩ => rfl)

theorem sum_idx (n : Fin 16384) (k : Fin 2000) : idx_main_v11 (ix1 n) k = ix2 n k :=
  funext fun a => Fin.ext (by match a with | ⟨0, _⟩ => rfl | ⟨1, _⟩ => rfl)

theorem v6_row (n : Fin 16384) : val_main_v6 (F := Ideal) x0 x1 (ix1 n) = rowMax (row x0 x1 n) := by
  rw [val_main_v6_apply, val_main_v5_apply, val_main_cst_0_apply]
  unfold val_main_v4 rowMax
  exact congrArg (max _) (hostReduce_maximumf_row (val_main_v3 (F := Ideal) x0 x1) (val_main_cst (F := Ideal))
    reducesTo_S16384x2000_S16384_d1 (by decide) h_S_ n)

theorem v10_row (n : Fin 16384) (k : Fin 2000) : val_main_v10 (F := Ideal) x0 x1 (ix2 n k) = expo (row x0 x1 n) k := by
  rw [val_main_v10_apply, val_main_v9_apply, val_main_v8_apply, val_main_v7_apply, col_idx, v6_row]
  rfl

theorem v11_row (n : Fin 16384) : val_main_v11 (F := Ideal) x0 x1 (ix1 n) = ∑ k : Fin 2000, expo (row x0 x1 n) k := by
  rw [val_main_v11_apply, val_main_cst_1_apply]
  show Ideal.ofBits .f32 0x00000000#32 + _ = _
  rw [Ideal.ofBits_zero_f32, zero_add]
  exact Finset.sum_congr rfl fun k _ => (congrArg (val_main_v10 (F := Ideal) x0 x1) (sum_idx n k)).trans (v10_row x0 x1 n k)

theorem v14_row (n : Fin 16384) (k : Fin 2000) : val_main_v14 (F := Ideal) x0 x1 (ix2 n k) = soft (row x0 x1 n) k := by
  rw [val_main_v14_apply, val_main_v13_apply, val_main_v12_apply]
  exact congrArg₂ Ideal.div (v10_row x0 x1 n k) ((congrArg (val_main_v11 (F := Ideal) x0 x1) (col_idx n k)).trans (v11_row x0 x1 n))

theorem v24_row (n : Fin 16384) (k : Fin 2000) : val_main_v24 (F := Ideal) x0 x1 (ix2 n k) = shrunk (row x0 x1 n) k := by
  rw [val_main_v24_apply, val_main_v18_apply, val_main_v17_apply, val_main_v16_apply, val_main_v15_apply, val_main_cst_2_apply,
    val_main_call0_v0_apply, val_main_call0_cst_apply, val_main_v23_apply, val_main_v21_apply, val_main_v20_apply,
    val_main_v19_apply, val_main_cst_3_apply, val_main_v22_apply, val_main_cst_4_apply, v14_row]
  rfl

theorem v26_row (n : Fin 16384) :
    val_main_v26 (F := Ideal) x0 x1 (ix1 n) = ∑ k : Fin 2000, max (shrunk (row x0 x1 n) k) (-(shrunk (row x0 x1 n) k)) := by
  rw [val_main_v26_apply, val_main_cst_5_apply]
  show Ideal.ofBits .f32 0x00000000#32 + _ = _
  rw [Ideal.ofBits_zero_f32, zero_add]
  refine Finset.sum_congr rfl fun k _ => ?_
  rw [val_main_v25_apply]
  show max (val_main_v24 (F := Ideal) x0 x1 (idx_main_v26 (ix1 n) k)) (-(val_main_v24 (F := Ideal) x0 x1 (idx_main_v26 (ix1 n) k))) = _
  rw [show idx_main_v26 (ix1 n) k = ix2 n k from sum_idx n k, v24_row]

theorem v31_row (n : Fin 16384) (k : Fin 2000) : val_main_v31 (F := Ideal) x0 x1 (ix2 n k) = attn (row x0 x1 n) k := by
  rw [val_main_v31_apply, val_main_v30_apply, val_main_v29_apply, val_main_v27_apply, val_main_v28_apply, val_main_cst_6_apply]
  exact congrArg₂ Ideal.div (v24_row x0 x1 n k)
    (congrArg₂ max ((congrArg (val_main_v26 (F := Ideal) x0 x1) (col_idx n k)).trans (v26_row x0 x1 n)) rfl)

/-! ## The tokens and their logits -/

/-- The row of the token at (b, h, w). -/
def rowOf (b : Fin 16) (h w : Fin 32) : Fin 16384 :=
  ⟨(b.val * 32 + h.val) * 32 + w.val, by have := b.isLt; have := h.isLt; have := w.isLt; omega⟩

/-- Feature `c` of the token at (b, h, w) is x at (b, c, h, w). -/
theorem tok_idx (b : Fin 16) (h w : Fin 32) (k : Fin 2000) (c : Fin 256) :
    idx_main_v0 (idx_main_v1 (lidx_main_v3 (ix2 (rowOf b h w) k) c)) = ix4 b c h w := by
  funext a; apply Fin.ext
  have hb := b.isLt; have hh := h.isLt; have hw := w.isLt; have hc := c.isLt
  match a with
  | ⟨0, _⟩ => show (((b.val * 32 + h.val) * 32 + w.val) * 256 + c.val) / 262144 = b.val; omega
  | ⟨1, _⟩ => show (((b.val * 32 + h.val) * 32 + w.val) * 256 + c.val) % 256 = c.val; omega
  | ⟨2, _⟩ => show (((b.val * 32 + h.val) * 32 + w.val) * 256 + c.val) / 8192 % 32 = h.val; omega
  | ⟨3, _⟩ => show (((b.val * 32 + h.val) * 32 + w.val) * 256 + c.val) / 256 % 32 = w.val; omega

theorem mem_idx (n : Fin 16384) (k : Fin 2000) (c : Fin 256) : idx_main_v2 (ridx_main_v3 (ix2 n k) c) = ix2 k c :=
  funext fun a => Fin.ext (by match a with | ⟨0, _⟩ => rfl | ⟨1, _⟩ => rfl)

/-- The row of the token at (b, h, w) is the specification's logits of that token. -/
theorem row_eq (b : Fin 16) (h w : Fin 32) : row x0 x1 (rowOf b h w) = logits x0 x1 b h w := by
  funext k
  unfold row logits
  rw [val_main_v3_apply]
  refine Finset.sum_congr rfl fun c _ => ?_
  rw [val_main_v1_apply, val_main_v0_apply, val_main_v2_apply, tok_idx, mem_idx]

/-! ## The two results -/

theorem att_idx (b : Fin 16) (k : Fin 2000) (h w : Fin 32) :
    idx_main_v35 (idx_main_v36 (ix4 b k h w)) = ix2 (rowOf b h w) k := by
  funext a; apply Fin.ext
  have hb := b.isLt; have hh := h.isLt; have hw := w.isLt; have hk := k.isLt
  match a with
  | ⟨0, _⟩ => show (((b.val * 32 + h.val) * 32 + w.val) * 2000 + k.val) / 2000 = (b.val * 32 + h.val) * 32 + w.val; omega
  | ⟨1, _⟩ => show (((b.val * 32 + h.val) * 32 + w.val) * 2000 + k.val) % 2000 = k.val; omega

/-- The reference's attention map is the specification's. -/
theorem att_eq : val_main_v36 (F := Ideal) x0 x1 = attOut x0 x1 := by
  funext i
  obtain ⟨b, k, h, w, rfl⟩ : ∃ (b : Fin 16) (k : Fin 2000) (h w : Fin 32), i = ix4 b k h w := ⟨i 0, i 1, i 2, i 3, eq_ix4 i⟩
  rw [val_main_v36_apply, val_main_v35_apply, att_idx, v31_row, row_eq]
  rfl

theorem y_lidx (b : Fin 16) (c : Fin 256) (h w : Fin 32) (k : Fin 2000) :
    lidx_main_v32 (idx_main_v33 (idx_main_v34 (ix4 b c h w))) k = ix2 (rowOf b h w) k := by
  funext a; apply Fin.ext
  have hb := b.isLt; have hh := h.isLt; have hw := w.isLt; have hc := c.isLt
  match a with
  | ⟨0, _⟩ => show (((b.val * 32 + h.val) * 32 + w.val) * 256 + c.val) / 256 = (b.val * 32 + h.val) * 32 + w.val; omega
  | ⟨1, _⟩ => rfl

theorem y_ridx (b : Fin 16) (c : Fin 256) (h w : Fin 32) (k : Fin 2000) :
    ridx_main_v32 (idx_main_v33 (idx_main_v34 (ix4 b c h w))) k = ix2 k c := by
  funext a; apply Fin.ext
  have hb := b.isLt; have hh := h.isLt; have hw := w.isLt; have hc := c.isLt
  match a with
  | ⟨0, _⟩ => rfl
  | ⟨1, _⟩ => show (((b.val * 32 + h.val) * 32 + w.val) * 256 + c.val) % 256 = c.val; omega

/-- The reference's read-out is the specification's. -/
theorem y_eq : val_main_v34 (F := Ideal) x0 x1 = yOut x0 x1 := by
  funext i
  obtain ⟨b, c, h, w, rfl⟩ : ∃ (b : Fin 16) (c : Fin 256) (h w : Fin 32), i = ix4 b c h w := ⟨i 0, i 1, i 2, i 3, eq_ix4 i⟩
  rw [val_main_v34_apply, val_main_v33_apply, val_main_v32_apply]
  show _ = ∑ k : Fin 2000, attn (logits x0 x1 b h w) k * x1 (ix2 k c)
  refine Finset.sum_congr rfl fun k _ => ?_
  rw [y_lidx, y_ridx, v31_row, row_eq]

end Cert.ReferenceIdeal.Row

end
-- ==== Proof.lean ====
/-
  The memory-attention layer: a Pallas kernel against its jnp reference, equal over the extended reals.

  Input x : [16, 256, 32, 32] and memory w : [2000, 256]. Each of the 16 · 32 · 32 positions (b, h, w) is a token with the
  256 features x[b, ·, h, w]; its logits against the 2000 memory rows go through a softmax (shifted by the row's maximum),
  a hard shrinkage max (a − τ) 0 · a / (|a − τ| + ε) and a renormalisation in the 1-norm (divided by max (∑ |·|) ε); the
  results are these weights, att[b, k, h, w], and their read-out against the memory, y[b, c, h, w] = ∑ k, att · w[k, c]
  (Proof/Spec.lean states both as functions of x and w).

  The kernel runs a grid of 16 × 2 points; point (b, h) stages the rows 16h .. 16h + 16 of image b and the whole memory,
  computes the [512, 2000] logits of the block's 512 tokens by one matrix product, the chain row by row, the read-out by a
  second product, and lays both results back out in NCHW. The reference does the same on all 16384 tokens at once, with
  host transposes and reshapes around it. Both sides apply the SAME operations to a token's row of logits, and the two
  programs print the same three literals (τ, ε, 0) — so no algebraic law is needed beyond reading every reduction as a sum
  or a fold of `max` over the 2000 columns, every matrix product as a sum over its contracted coordinate, and every
  layout operation as index arithmetic; finiteness of the inputs is never used.

  Proof/KernelRow.lean reads the kernel's two payloads at an entry; Proof/KernelValue.lean takes the blocks to the arrays;
  Proof/RefRow.lean reads the reference's stages at a token's row; here the two runs are set side by side.
  `preserves` is `True`: the idealization rewrote nothing.
-/
import proofs.«161617_j3693671874650_1_alg».proof.Defs
import proofs.«161617_j3693671874650_1_alg».proof.Proof.Gen.Kernel
import proofs.«161617_j3693671874650_1_alg».proof.Proof.Gen.Kernel.Skeleton
import proofs.«161617_j3693671874650_1_alg».proof.Proof.Gen.Kernel.Launch
import proofs.«161617_j3693671874650_1_alg».proof.Proof.Gen.Kernel.Points
import proofs.«161617_j3693671874650_1_alg».proof.Proof.Gen.Kernel.Frame
import proofs.«161617_j3693671874650_1_alg».proof.Proof.Gen.KernelIdeal
import proofs.«161617_j3693671874650_1_alg».proof.Proof.Gen.KernelIdeal.Skeleton
import proofs.«161617_j3693671874650_1_alg».proof.Proof.Gen.KernelIdeal.Launch
import proofs.«161617_j3693671874650_1_alg».proof.Proof.Gen.KernelIdeal.Points
import proofs.«161617_j3693671874650_1_alg».proof.Proof.Gen.KernelIdeal.Frame
import proofs.«161617_j3693671874650_1_alg».proof.Proof.Gen.ReferenceIdeal
import proofs.«161617_j3693671874650_1_alg».proof.Proof.Gen.Pre_finite_inputs
import proofs.«161617_j3693671874650_1_alg».proof.Proof.ValueLeg
import proofs.«161617_j3693671874650_1_alg».proof.Proof.Gen.ReferenceIdeal.Run
import proofs.«161617_j3693671874650_1_alg».proof.Proof.Gen.ReferenceIdeal.Read
import proofs.«161617_j3693671874650_1_alg».proof.Proof.KernelValue
import proofs.«161617_j3693671874650_1_alg».proof.Proof.RefRow
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the specification's read-out and attention map of the (agreeing) arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v34_eq, Cert.ReferenceIdeal.Row.y_eq, (hagree c).1, (hagree c).2]
  · rw [Cert.ReferenceIdeal.Read.val_main_v36_eq, Cert.ReferenceIdeal.Row.att_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
